-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x20 : Shape := ⟨3, ![32, 4096, 20]⟩
abbrev S32x4096x64 : Shape := ⟨3, ![32, 4096, 64]⟩
abbrev S_ : Shape := ⟨0, ![]⟩

class Facts : Prop where
  bcast_S_S32x4096x64 : S_.BroadcastsInDim S32x4096x64 (![] : Fin 0 → Fin S32x4096x64.rank)
  reducesTo_S32x4096x64_S_d0_1_2 : S32x4096x64.ReducesTo [0, 1, 2] S_
  h_S_ : 0 < S_.numel
  bcast_S_S32x4096x20 : S_.BroadcastsInDim S32x4096x20 (![] : Fin 0 → Fin S32x4096x20.rank)
  reducesTo_S32x4096x20_S_d0_1_2 : S32x4096x20.ReducesTo [0, 1, 2] S_

variable [Facts]

def fn {F : FTy → Type} [FloatOps F] (main_arg0 : IVec S32x4096x20 32) (main_arg1 : FVec F S32x4096x64 .f32) : IVec S_ 1 :=
  let main_v0 : FVec F S32x4096x64 .f32 := Host.absf main_arg1
  let main_cst : FVec F S_ .f32 := constant S_ .f32 0x7F800000#32
  let main_v1 : FVec F S32x4096x64 .f32 := broadcastInDim S32x4096x64 ![] bcast_S_S32x4096x64 main_cst
  let main_v2 : IVec S32x4096x64 1 := cmpf .olt main_v0 main_v1
  let main_c : IVec S_ 1 := constantI S_ 1 1#1
  let main_v3 : IVec S_ 1 := (fun x v => Host.reduce IntOp.andi x v reducesTo_S32x4096x64_S_d0_1_2 h_S_) main_v2 main_c
  let main_c_0 : IVec S_ 32 := constantI S_ 32 0#32
  let main_v4 : IVec S32x4096x20 32 := broadcastInDim S32x4096x20 ![] bcast_S_S32x4096x20 main_c_0
  let main_v5 : IVec S32x4096x20 1 := cmpi .sge main_arg0 main_v4
  let main_c_1 : IVec S_ 1 := constantI S_ 1 1#1
  let main_v6 : IVec S_ 1 := (fun x v => Host.reduce IntOp.andi x v reducesTo_S32x4096x20_S_d0_1_2 h_S_) main_v5 main_c_1
  let main_v7 : IVec S_ 1 := andi main_v3 main_v6
  let main_c_2 : IVec S_ 32 := constantI S_ 32 4096#32
  let main_v8 : IVec S32x4096x20 32 := broadcastInDim S32x4096x20 ![] bcast_S_S32x4096x20 main_c_2
  let main_v9 : IVec S32x4096x20 1 := cmpi .slt main_arg0 main_v8
  let main_c_3 : IVec S_ 1 := constantI S_ 1 1#1
  let main_v10 : IVec S_ 1 := (fun x v => Host.reduce IntOp.andi x v reducesTo_S32x4096x20_S_d0_1_2 h_S_) main_v9 main_c_3
  let main_v11 : IVec S_ 1 := andi main_v7 main_v10
  main_v11
-- ==== Kernel.lean ====
abbrev S32x4096x20 : Shape := ⟨3, ![32, 4096, 20]⟩
abbrev S32x4096x64 : Shape := ⟨3, ![32, 4096, 64]⟩
abbrev S32x4096x20x64 : Shape := ⟨4, ![32, 4096, 20, 64]⟩
abbrev S1x256x20 : Shape := ⟨3, ![1, 256, 20]⟩
abbrev S1x4096x64 : Shape := ⟨3, ![1, 4096, 64]⟩
abbrev S1x256x20x64 : Shape := ⟨4, ![1, 256, 20, 64]⟩
abbrev S256x20 : Shape := ⟨2, ![256, 20]⟩
abbrev S4096x64 : Shape := ⟨2, ![4096, 64]⟩
abbrev S256x4096 : Shape := ⟨2, ![256, 4096]⟩
abbrev S256x1 : Shape := ⟨2, ![256, 1]⟩
abbrev S256 : Shape := ⟨1, ![256]⟩
abbrev S256x64 : Shape := ⟨2, ![256, 64]⟩
abbrev S1x256x1x64 : Shape := ⟨4, ![1, 256, 1, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x20, .i32⟩
  | .hbm, ⟨1, _⟩ => ⟨S32x4096x64, .f32⟩
  | .hbm, ⟨2, _⟩ => ⟨S32x4096x20x64, .f32⟩
  | .local _ .vmem, ⟨0, _⟩ => ⟨S1x256x20, .i32⟩
  | .local _ .vmem, ⟨1, _⟩ => ⟨S1x256x20, .i32⟩
  | .local _ .vmem, ⟨2, _⟩ => ⟨S1x4096x64, .f32⟩
  | .local _ .vmem, ⟨3, _⟩ => ⟨S1x4096x64, .f32⟩
  | .local _ .vmem, ⟨4, _⟩ => ⟨S1x256x20x64, .f32⟩
  | .local _ .vmem, ⟨5, _⟩ => ⟨S1x256x20x64, .f32⟩
  | _, _ => ⟨S32x4096x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x20 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x20x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x20_S1x256x20_0_0_0 : ∀ a, (![0, 0, 0] : Fin 3 → Nat) a + S1x256x20.size a ≤ S1x256x20.size a
  h_S1x256x20 : 0 < S1x256x20.numel
  shapeCasts_S1x256x20_S256x20 : S1x256x20.ShapeCasts S256x20
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  iota_S256x4096_d1_w32 : S256x4096.Iotas .tc 32 [1]
  slices_S256x20_o0_0_S256x1 : S256x20.Slices ![0, 0] S256x1
  shapeCasts_S256x1_S256 : S256x1.ShapeCasts S256
  shapeCasts_S256_S256x1 : S256.ShapeCasts S256x1
  broadcasts_S256x1_S256x4096 : S256x1.Broadcasts S256x4096
  natLt_1_32 : 1 < 32
  inb_S1x256x20x64_S1x256x1x64_0_0_0_0 : ∀ a, (![0, 0, 0, 0] : Fin 4 → Nat) a + S1x256x1x64.size a ≤ S1x256x20x64.size a
  h_S1x256x1x64 : 0 < S1x256x1x64.numel
  shapeCasts_S1x256x1x64_S256x64 : S1x256x1x64.ShapeCasts S256x64
  shapeCasts_S256x64_S1x256x1x64 : S256x64.ShapeCasts S1x256x1x64
  slices_S256x20_o0_1_S256x1 : S256x20.Slices ![0, 1] S256x1
  inb_S1x256x20x64_S1x256x1x64_0_0_1_0 : ∀ a, (![0, 0, 1, 0] : Fin 4 → Nat) a + S1x256x1x64.size a ≤ S1x256x20x64.size a
  slices_S256x20_o0_2_S256x1 : S256x20.Slices ![0, 2] S256x1
  inb_S1x256x20x64_S1x256x1x64_0_0_2_0 : ∀ a, (![0, 0, 2, 0] : Fin 4 → Nat) a + S1x256x1x64.size a ≤ S1x256x20x64.size a
  slices_S256x20_o0_3_S256x1 : S256x20.Slices ![0, 3] S256x1
  inb_S1x256x20x64_S1x256x1x64_0_0_3_0 : ∀ a, (![0, 0, 3, 0] : Fin 4 → Nat) a + S1x256x1x64.size a ≤ S1x256x20x64.size a
  slices_S256x20_o0_4_S256x1 : S256x20.Slices ![0, 4] S256x1
  inb_S1x256x20x64_S1x256x1x64_0_0_4_0 : ∀ a, (![0, 0, 4, 0] : Fin 4 → Nat) a + S1x256x1x64.size a ≤ S1x256x20x64.size a
  slices_S256x20_o0_5_S256x1 : S256x20.Slices ![0, 5] S256x1
  inb_S1x256x20x64_S1x256x1x64_0_0_5_0 : ∀ a, (![0, 0, 5, 0] : Fin 4 → Nat) a + S1x256x1x64.size a ≤ S1x256x20x64.size a
  slices_S256x20_o0_6_S256x1 : S256x20.Slices ![0, 6] S256x1
  inb_S1x256x20x64_S1x256x1x64_0_0_6_0 : ∀ a, (![0, 0, 6, 0] : Fin 4 → Nat) a + S1x256x1x64.size a ≤ S1x256x20x64.size a
  slices_S256x20_o0_7_S256x1 : S256x20.Slices ![0, 7] S256x1
  inb_S1x256x20x64_S1x256x1x64_0_0_7_0 : ∀ a, (![0, 0, 7, 0] : Fin 4 → Nat) a + S1x256x1x64.size a ≤ S1x256x20x64.size a
  slices_S256x20_o0_8_S256x1 : S256x20.Slices ![0, 8] S256x1
  inb_S1x256x20x64_S1x256x1x64_0_0_8_0 : ∀ a, (![0, 0, 8, 0] : Fin 4 → Nat) a + S1x256x1x64.size a ≤ S1x256x20x64.size a
  slices_S256x20_o0_9_S256x1 : S256x20.Slices ![0, 9] S256x1
  inb_S1x256x20x64_S1x256x1x64_0_0_9_0 : ∀ a, (![0, 0, 9, 0] : Fin 4 → Nat) a + S1x256x1x64.size a ≤ S1x256x20x64.size a
  slices_S256x20_o0_10_S256x1 : S256x20.Slices ![0, 10] S256x1
  inb_S1x256x20x64_S1x256x1x64_0_0_10_0 : ∀ a, (![0, 0, 10, 0] : Fin 4 → Nat) a + S1x256x1x64.size a ≤ S1x256x20x64.size a
  slices_S256x20_o0_11_S256x1 : S256x20.Slices ![0, 11] S256x1
  inb_S1x256x20x64_S1x256x1x64_0_0_11_0 : ∀ a, (![0, 0, 11, 0] : Fin 4 → Nat) a + S1x256x1x64.size a ≤ S1x256x20x64.size a
  slices_S256x20_o0_12_S256x1 : S256x20.Slices ![0, 12] S256x1
  inb_S1x256x20x64_S1x256x1x64_0_0_12_0 : ∀ a, (![0, 0, 12, 0] : Fin 4 → Nat) a + S1x256x1x64.size a ≤ S1x256x20x64.size a
  slices_S256x20_o0_13_S256x1 : S256x20.Slices ![0, 13] S256x1
  inb_S1x256x20x64_S1x256x1x64_0_0_13_0 : ∀ a, (![0, 0, 13, 0] : Fin 4 → Nat) a + S1x256x1x64.size a ≤ S1x256x20x64.size a
  slices_S256x20_o0_14_S256x1 : S256x20.Slices ![0, 14] S256x1
  inb_S1x256x20x64_S1x256x1x64_0_0_14_0 : ∀ a, (![0, 0, 14, 0] : Fin 4 → Nat) a + S1x256x1x64.size a ≤ S1x256x20x64.size a
  slices_S256x20_o0_15_S256x1 : S256x20.Slices ![0, 15] S256x1
  inb_S1x256x20x64_S1x256x1x64_0_0_15_0 : ∀ a, (![0, 0, 15, 0] : Fin 4 → Nat) a + S1x256x1x64.size a ≤ S1x256x20x64.size a
  slices_S256x20_o0_16_S256x1 : S256x20.Slices ![0, 16] S256x1
  inb_S1x256x20x64_S1x256x1x64_0_0_16_0 : ∀ a, (![0, 0, 16, 0] : Fin 4 → Nat) a + S1x256x1x64.size a ≤ S1x256x20x64.size a
  slices_S256x20_o0_17_S256x1 : S256x20.Slices ![0, 17] S256x1
  inb_S1x256x20x64_S1x256x1x64_0_0_17_0 : ∀ a, (![0, 0, 17, 0] : Fin 4 → Nat) a + S1x256x1x64.size a ≤ S1x256x20x64.size a
  slices_S256x20_o0_18_S256x1 : S256x20.Slices ![0, 18] S256x1
  inb_S1x256x20x64_S1x256x1x64_0_0_18_0 : ∀ a, (![0, 0, 18, 0] : Fin 4 → Nat) a + S1x256x1x64.size a ≤ S1x256x20x64.size a
  slices_S256x20_o0_19_S256x1 : S256x20.Slices ![0, 19] S256x1
  inb_S1x256x20x64_S1x256x1x64_0_0_19_0 : ∀ a, (![0, 0, 19, 0] : Fin 4 → Nat) a + S1x256x1x64.size a ≤ S1x256x20x64.size a
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x20.size a ≤ S32x4096x20.size a
  hwx0_0 : ∀ i : grid0.Coords, EltTy.bits .i32 = 32 ∨ (Rect.block (s := S32x4096x20) S1x256x20.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S32x4096x64.size a
  hwx0_1 : ∀ i : grid0.Coords, EltTy.bits .f32 = 32 ∨ (Rect.block (s := S32x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x20x64.size a ≤ S32x4096x20x64.size a
  hwx0_2 : ∀ i : grid0.Coords, EltTy.bits .f32 = 32 ∨ (Rect.block (s := S32x4096x20x64) S1x256x20x64.size (cc0_transform_2 i) (hinb0_2 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x256x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x20x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x20 : Shape := ⟨3, ![32, 4096, 20]⟩
abbrev S32x4096x64 : Shape := ⟨3, ![32, 4096, 64]⟩
abbrev S32 : Shape := ⟨1, ![32]⟩
abbrev S32x1x1 : Shape := ⟨3, ![32, 1, 1]⟩
abbrev S_ : Shape := ⟨0, ![]⟩
abbrev S32x4096x20x1 : Shape := ⟨4, ![32, 4096, 20, 1]⟩
abbrev S32x4096x20x2 : Shape := ⟨4, ![32, 4096, 20, 2]⟩
abbrev S32x4096x20x64 : Shape := ⟨4, ![32, 4096, 20, 64]⟩

abbrev nBuf : Space → Nat
  | .hbm => 23
  | .vmem => 0
  | .smem => 0
  | _ => 0

abbrev bufTy : (tb : Table) → Fin (tcTables nBuf tb) → BufTy
  | .hbm, ⟨0, _⟩ => ⟨S32x4096x20, .i32⟩
  | .hbm, ⟨1, _⟩ => ⟨S32x4096x64, .f32⟩
  | .hbm, ⟨2, _⟩ => ⟨S32, .i32⟩
  | .hbm, ⟨3, _⟩ => ⟨S32x1x1, .i32⟩
  | .hbm, ⟨4, _⟩ => ⟨S_, .i32⟩
  | .hbm, ⟨5, _⟩ => ⟨S32x1x1, .i32⟩
  | .hbm, ⟨6, _⟩ => ⟨S32x1x1, .i1⟩
  | .hbm, ⟨7, _⟩ => ⟨S_, .i32⟩
  | .hbm, ⟨8, _⟩ => ⟨S32x1x1, .i32⟩
  | .hbm, ⟨9, _⟩ => ⟨S32x1x1, .i32⟩
  | .hbm, ⟨10, _⟩ => ⟨S32x1x1, .i32⟩
  | .hbm, ⟨11, _⟩ => ⟨S_, .i32⟩
  | .hbm, ⟨12, _⟩ => ⟨S32x4096x20, .i32⟩
  | .hbm, ⟨13, _⟩ => ⟨S32x4096x20, .i1⟩
  | .hbm, ⟨14, _⟩ => ⟨S_, .i32⟩
  | .hbm, ⟨15, _⟩ => ⟨S32x4096x20, .i32⟩
  | .hbm, ⟨16, _⟩ => ⟨S32x4096x20, .i32⟩
  | .hbm, ⟨17, _⟩ => ⟨S32x4096x20, .i32⟩
  | .hbm, ⟨18, _⟩ => ⟨S32x4096x20, .i32⟩
  | .hbm, ⟨19, _⟩ => ⟨S32x4096x20x1, .i32⟩
  | .hbm, ⟨20, _⟩ => ⟨S32x4096x20x1, .i32⟩
  | .hbm, ⟨21, _⟩ => ⟨S32x4096x20x2, .i32⟩
  | .hbm, ⟨22, _⟩ => ⟨S32x4096x20x64, .f32⟩
  | _, _ => ⟨S32x4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S_S32x4096x20 : S_.BroadcastsInDim S32x4096x20 (![] : Fin 0 → Fin S32x4096x20.rank)
  bcast_S32x1x1_S32x4096x20_0_1_2 : S32x1x1.BroadcastsInDim S32x4096x20 (![0, 1, 2] : Fin 3 → Fin S32x4096x20.rank)
  bcast_S32x4096x20_S32x4096x20x1_0_1_2 : S32x4096x20.BroadcastsInDim S32x4096x20x1 (![0, 1, 2] : Fin 3 → Fin S32x4096x20x1.rank)
  concatenates_S32x4096x20x1_S32x4096x20x1_S32x4096x20x2_d3 : Shape.Concatenates [S32x4096x20x1, S32x4096x20x1] S32x4096x20x2 3
  gather_S32x4096x64_S32x4096x20x2_S32x4096x20x64_3_01_n_n_01_3_1164_wf : GatherDims.WF S32x4096x64 S32x4096x20x2 S32x4096x20x64 [3] [0, 1] [] [0, 1] [] 3 ![1, 1, 64]

variable [Facts₀]

def gather_S32x4096x64_S32x4096x20x2_S32x4096x20x64_3_01_n_n_01_3_1164 : GatherDims S32x4096x64 S32x4096x20x2 S32x4096x20x64 where
  offsetDims := [3]
  collapsedSliceDims := [0, 1]
  operandBatchingDims := []
  startIndicesBatchingDims := []
  startIndexMap := [0, 1]
  indexVectorDim := 3
  sliceSizes := ![1, 1, 64]
  wf := gather_S32x4096x64_S32x4096x20x2_S32x4096x20x64_3_01_n_n_01_3_1164_wf

class Facts : Prop extends Facts₀ where

variable [Facts]
-- ==== Proof.InRange.lean ====
/-
  The precondition read back. Beside the finiteness of the features it says that every index word is at least 0 and
  below 4096, each as one conjunction over the whole index array reduced to a single bit; a bit that came out 1
  met a 1 at every entry, and a signed comparison that is 1 is the inequality of the signed values.
-/
import proofs.«416370_j70824010711496_1_alg».proof.Pre_finite_inputs
import Idealize.ShloMosaic.Lib.ReduceAll
import Idealize.ShloMosaic.Lib.StableHlo.Predicate
import Idealize.ShloMosaic.Lib.ValueIdx

noncomputable section

namespace Cert.InRange

open Idealize.ShloMosaic Cert.Pre_finite_inputs

/-- A word that compares signed-greater-or-equal to the zero word is not negative. -/
theorem nonneg_of_sge (w : BitVec 32) (h : IntOp.cmpi .sge w 0#32 = 1#1) : 0 ≤ w.toInt := by
  simp only [IntOp.cmpi, StableHlo.Predicate.ofBool_eq_one_iff, BitVec.sle, decide_eq_true_eq] at h
  have h0 : (0#32 : BitVec 32).toInt = 0 := by decide
  omega

/-- A word that compares signed-less to the word 4096 is below 4096. -/
theorem lt_of_slt (w : BitVec 32) (h : IntOp.cmpi .slt w 4096#32 = 1#1) : w.toInt < 4096 := by
  simp only [IntOp.cmpi, StableHlo.Predicate.ofBool_eq_one_iff, BitVec.slt, decide_eq_true_eq] at h
  have h0 : (4096#32 : BitVec 32).toInt = 4096 := by decide
  omega

instance : Subsingleton S_.Idx := ⟨fun a b => funext fun d => d.elim0⟩

variable [Facts]

/-- Under the precondition every index word lies in [0, 4096), at any float instance. -/
theorem index_in_range {F : FTy → Type} [FloatOps F] (idx : IVec S32x4096x20 32) (feat : FVec F S32x4096x64 .f32)
    (h : fn (F := F) idx feat = fun _ => 1#1) (i : S32x4096x20.Idx) :
    0 ≤ (idx i).toInt ∧ (idx i).toInt < 4096 := by
  have e := congrFun h ValueIdx.ix0
  dsimp only [fn] at e
  obtain ⟨e7, e10⟩ := IntOp.andi_eq_one.1 e
  obtain ⟨-, e6⟩ := IntOp.andi_eq_one.1 e7
  have g0 := Host.reduce_andi_all _ _ _ _ _ e6 i
  have g1 := Host.reduce_andi_all _ _ _ _ _ e10 i
  exact ⟨nonneg_of_sge _ g0, lt_of_slt _ g1⟩

end Cert.InRange

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.LibOneHotDot.lean ====
/-
  Selecting a row of a table by a matrix product: a 0/1 matrix whose row p compares one word w with the column
  numbers 0, 1, …, K − 1 has a single one, at column w, so row p of its product with a [K × N] table is row w of the
  table.

  The matrix is built the way a kernel builds it: the comparison bit widened to a word, converted to a float, and
  narrowed to bf16; at the exact values the bit reads 1 or 0 and the narrowing changes nothing. The sum over the
  contraction then has one term that is 1 · x and K − 1 terms that are 0 · x, and on the extended reals 0 · x = 0 for
  every x, the infinities included, so nothing is asked of the table's entries.
-/
import Idealize.ShloMosaic.Lib.ValueIdx
import Idealize.ShloMosaic.Lib.KernelVsHost
import Idealize.ShloMosaic.Lib.StableHlo.Predicate
import Idealize.ShloMosaic.PureOps.Ideal.Laws
import proofs.«416370_j70824010711496_1_alg».proof.Proof.LibPlainDot

noncomputable section

namespace Cert.LibOneHotDot

open Idealize.ShloMosaic Idealize.ShloMosaic.ValueIdx

/-- The comparison bit of two words, widened, read signed and converted: 1 when the words are equal, else 0. -/
theorem eq_bit_value (a b : BitVec 32) :
    ((((IntOp.cmpi .eq a b).setWidth 32).toInt : ℝ) : EReal) = if a = b then 1 else 0 := by
  rw [toInt_setWidth_bit]
  by_cases h : a = b
  · rw [if_pos h, StableHlo.Predicate.cmpi_eq_iff.2 h]
    simp
  · have h0 : IntOp.cmpi .eq a b = 0#1 :=
      eq_zero_of_ne_one fun h1 => h (StableHlo.Predicate.cmpi_eq_iff.1 h1)
    rw [if_neg h, h0]
    simp

/-- A word is the word of a column number below 2³² exactly when its value is that number. -/
theorem eq_ofNat_iff (w : BitVec 32) (k : Nat) (hk : k < 2 ^ 32) : w = BitVec.ofNat 32 k ↔ w.toNat = k := by
  constructor
  · intro h
    rw [h, BitVec.toNat_ofNat]
    exact Nat.mod_eq_of_lt hk
  · intro h
    apply BitVec.eq_of_toNat_eq
    rw [BitVec.toNat_ofNat, h]
    exact (Nat.mod_eq_of_lt hk).symm

variable {M K N : Nat} {φ : FTy}

/-- Row p of the product of the one-hot matrix of the word w with a table is row w of the table. A holds w all along
    its row p, B holds the column numbers along it, and w names the row r of the table. -/
theorem onehot_matmul_apply (hK : K ≤ 2 ^ 32) (A B : IVec ⟨2, ![M, K]⟩ 32) (feat : FVec Ideal ⟨2, ![K, N]⟩ φ)
    (h1 : 1 < 32) (hb : FTy.bits .bf16 < FTy.bits .f32) (p : Fin M) (q : Fin N) (w : BitVec 32) (r : Fin K)
    (hw : w.toNat = r.val)
    (hA : ∀ k : Fin K, A (ix2 p k) = w) (hB : ∀ k : Fin K, B (ix2 p k) = BitVec.ofNat 32 k.val) :
    matmul (DotDims.plain M K N) none
        (truncf .bf16 (sitofp .f32 (extui 32 (cmpi .eq A B) h1) : FVec Ideal ⟨2, ![M, K]⟩ .f32) hb)
        feat (constant ⟨2, ![M, N]⟩ .f32 0x00000000#32) (ix2 p q)
      = feat (ix2 r q) := by
  rw [PlainDot.matmul_zero_plain_apply]
  have entry : ∀ k : Fin K,
      (truncf .bf16 (sitofp .f32 (extui 32 (cmpi .eq A B) h1) : FVec Ideal ⟨2, ![M, K]⟩ .f32) hb) (ix2 p k)
        = if k = r then (1 : EReal) else 0 := by
    intro k
    show ((((IntOp.cmpi .eq (A (ix2 p k)) (B (ix2 p k))).setWidth 32).toInt : ℝ) : EReal) = _
    rw [eq_bit_value, hA, hB]
    have hk : k.val < 2 ^ 32 := lt_of_lt_of_le k.isLt hK
    by_cases hkr : k = r
    · rw [if_pos hkr, if_pos ((eq_ofNat_iff w k.val hk).2 (by rw [hw, hkr]))]
    · rw [if_neg hkr, if_neg fun h => hkr (Fin.ext ((eq_ofNat_iff w k.val hk).1 h ▸ hw ▸ rfl))]
  rw [Finset.sum_eq_single r]
  · show (truncf .bf16 (sitofp .f32 (extui 32 (cmpi .eq A B) h1) : FVec Ideal ⟨2, ![M, K]⟩ .f32) hb) (ix2 p r)
        * feat (ix2 r q) = _
    rw [entry, if_pos rfl, one_mul]
  · intro k _ hk
    show (truncf .bf16 (sitofp .f32 (extui 32 (cmpi .eq A B) h1) : FVec Ideal ⟨2, ![M, K]⟩ .f32) hb) (ix2 p k)
        * feat (ix2 k q) = 0
    rw [entry, if_neg hk, zero_mul]
  · intro h
    exact absurd (Finset.mem_univ r) h

end Cert.LibOneHotDot

end
-- ==== Proof.Spec.lean ====
/-
  What both programs compute: a k-nearest-neighbour feature lookup. For a batch b, a query point n and a neighbour
  slot k, the index array names a point of the same batch, and the result's row (b, n, k) is that point's feature
  row:

      out[b, n, k, f] = features[b, idx[b, n, k], f].

  The function is made total by clamping the index word, read as a signed integer, into [0, 4095]; for a word
  that already names a point — the only case either program is compared on — the clamp changes nothing.
-/
import Idealize.ShloMosaic.Lib.ValueIdx
import Idealize.ShloMosaic.PureOps.Ideal

noncomputable section

namespace Cert.Spec

open Idealize.ShloMosaic Idealize.ShloMosaic.ValueIdx

/-- The point an index word names: the word read signed, clamped into [0, 4095]. -/
def row (w : BitVec 32) : Fin 4096 := ⟨min w.toInt.toNat 4095, by omega⟩

/-- An index word in [0, 4096) names the point of its own value, read signed … -/
theorem row_toInt (w : BitVec 32) (h0 : 0 ≤ w.toInt) (h1 : w.toInt < 4096) : w.toInt = ((row w).val : Int) := by
  show w.toInt = ((min w.toInt.toNat 4095 : Nat) : Int)
  omega

/-- … and read unsigned. -/
theorem row_toNat (w : BitVec 32) (h0 : 0 ≤ w.toInt) (h1 : w.toInt < 4096) : w.toNat = (row w).val := by
  have e := row_toInt w h0 h1
  have hc := BitVec.toInt_eq_toNat_cond w
  have hlt := w.isLt
  split at hc <;> omega

/-- The lookup, entry by entry: row (b, n, k) of the result is the feature row of the point idx[b, n, k] in batch b. -/
def G (idx : IVec ⟨3, ![32, 4096, 20]⟩ 32) (feat : FVec Ideal ⟨3, ![32, 4096, 64]⟩ .f32) :
    FVec Ideal ⟨4, ![32, 4096, 20, 64]⟩ .f32 :=
  fun j => feat (ix3 (j 0) (row (idx (ix3 (j 0) (j 1) (j 2)))) (j 3))

theorem G_apply (idx : IVec ⟨3, ![32, 4096, 20]⟩ 32) (feat : FVec Ideal ⟨3, ![32, 4096, 64]⟩ .f32)
    (b : Fin 32) (n : Fin 4096) (k : Fin 20) (f : Fin 64) :
    G idx feat (ix4 b n k f) = feat (ix3 b (row (idx (ix3 b n k))) f) := rfl

end Cert.Spec

end
-- ==== Proof.KernelBlock.lean ====
/-
  One grid point of the kernel, as a function of its two input blocks.

  The body holds a [256 × 20] block of index words and the whole [4096 × 64] feature table of one batch. For each
  of the 20 neighbour slots k it compares column k of the index block, laid along 4096 lanes, with the lane
  numbers 0 … 4095, turns the comparison bits into a 0/1 matrix and multiplies that matrix with the table; the
  [256 × 64] product is stored as rows (·, k, ·) of the [256 × 20 × 64] output block. A 0/1 row with its single one at
  lane w picks row w of the table, so the output block at (r, k, f) is the table's entry (idx[r, k], f) whenever the
  index word names a row of the table, that is, lies in [0, 4096).

  The 20 stores tile the output block, one slab per neighbour slot, so the block after the body is that one function
  of the block index.
-/
import proofs.«416370_j70824010711496_1_alg».proof.Proof.Gen.KernelIdeal.Frame
import proofs.«416370_j70824010711496_1_alg».proof.Proof.LibOneHotDot
import proofs.«416370_j70824010711496_1_alg».proof.Proof.Spec
import Idealize.ShloMosaic.Lib.Pipeline.Value
import Idealize.ShloMosaic.Lib.ValueIdx

set_option maxRecDepth 16384

noncomputable section

namespace Cert.KernelBlock

open Cert.KernelIdeal Cert.KernelIdeal.Gen Idealize.ShloMosaic Idealize.ShloMosaic.ValueIdx

/-- The [256 × 64] product the body forms for the neighbour slot at column `o` of the index block `v1`: the one-hot
    matrix of that column against the lane numbers `v5`, times the table `v4`. -/
def slot {F : FTy → Type} [FloatOps F] (o : Nat) (hs : S256x20.Slices ![0, o] S256x1) (v1 : IVec S256x20 32)
    (v4 : FVec F S4096x64 .bf16) (v5 : IVec S256x4096 32) : FVec F S256x64 .f32 :=
  matmul dot_S256x4096_S4096x64_S256x64_1_0_0_1_n_n none
    (truncf .bf16 (sitofp .f32 (extui 32 (cmpi .eq
      (broadcastTo S256x4096 (shapeCast S256x1 (shapeCast S256 (extractStridedSlice S256x1 ![0, o] v1 hs)
        shapeCasts_S256x1_S256) shapeCasts_S256_S256x1) broadcasts_S256x1_S256x4096) v5) natLt_1_32)) bitsLt_bf16_f32)
    v4 (constant S256x64 .f32 0x00000000#32)

variable (x0 : IVec S1x256x20 32) (x1 : FVec Ideal S1x4096x64 .f32)

/-- Column `o` of the index block, laid along the lanes: every lane of row p holds the index word (p, o). -/
theorem lanes_apply (o : Fin 20) (hs : S256x20.Slices ![0, o.val] S256x1) (p : Fin 256) (k : Fin 4096) :
    broadcastTo S256x4096 (shapeCast S256x1 (shapeCast S256 (extractStridedSlice S256x1 ![0, o.val] (k0_pay2 (F := Ideal) x0) hs)
        shapeCasts_S256x1_S256) shapeCasts_S256_S256x1) broadcasts_S256x1_S256x4096 (ix2 p k)
      = x0 (ix3 (0 : Fin 1) p o) := by
  refine (broadcastTo_apply _ _ (ix2 p k) (ix2 p (0 : Fin 1)) (fun a => match a with
    | ⟨0, _⟩ => by show p.val = if (256 : Nat) = 1 then 0 else p.val; rw [if_neg (by decide)]
    | ⟨1, _⟩ => by show 0 = if (1 : Nat) = 1 then 0 else k.val; rw [if_pos rfl])).trans ?_
  refine (shapeCast_apply _ _ (ix2 p (0 : Fin 1)) (ix1 p) (by
    rw [Shape.rowMajor_val_one, Shape.rowMajor_val_two]
    show p.val = p.val * 1 + 0
    omega)).trans ?_
  refine (shapeCast_apply _ _ (ix1 p) (ix2 p (0 : Fin 1)) (by
    rw [Shape.rowMajor_val_one, Shape.rowMajor_val_two]
    show p.val * 1 + 0 = p.val
    omega)).trans ?_
  refine (extractStridedSlice_apply _ _ hs (ix2 p (0 : Fin 1)) (ix2 p o) (fun a => match a with
    | ⟨0, _⟩ => by show p.val = 0 + p.val; omega
    | ⟨1, _⟩ => by show o.val = o.val + 0; omega)).trans ?_
  unfold k0_pay2
  exact shapeCast_apply x0 _ (ix2 p o) (ix3 (0 : Fin 1) p o) (by
    rw [Shape.rowMajor_val_three, Shape.rowMajor_val_two]
    show (0 * 256 + p.val) * 20 + o.val = p.val * 20 + o.val
    omega)

/-- The table the product is taken with is the feature block with its leading unit axis dropped. -/
theorem table_apply (r : Fin 4096) (q : Fin 64) :
    k0_pay3 (F := Ideal) x1 (ix2 r q) = x1 (ix3 (0 : Fin 1) r q) := by
  unfold k0_pay3
  show shapeCast S4096x64 x1 shapeCasts_S1x4096x64_S4096x64 (ix2 r q) = _
  exact shapeCast_apply x1 _ (ix2 r q) (ix3 (0 : Fin 1) r q) (by
    rw [Shape.rowMajor_val_three, Shape.rowMajor_val_two]
    show (0 * 4096 + r.val) * 64 + q.val = r.val * 64 + q.val
    omega)

variable (hx : ∀ i : S1x256x20.Idx, 0 ≤ (x0 i).toInt ∧ (x0 i).toInt < 4096)
include hx

/-- The product for slot `o` at (p, q): the feature entry (idx[p, o], q). -/
theorem product_apply (o : Fin 20) (hs : S256x20.Slices ![0, o.val] S256x1) (p : Fin 256) (q : Fin 64) :
    slot o.val hs (k0_pay2 (F := Ideal) x0) (k0_pay3 x1) (iota .tc S256x4096 32 [1] iota_S256x4096_d1_w32) (ix2 p q)
      = x1 (ix3 (0 : Fin 1) (Spec.row (x0 (ix3 (0 : Fin 1) p o))) q) := by
  unfold slot
  refine (LibOneHotDot.onehot_matmul_apply (M := 256) (K := 4096) (N := 64) (by norm_num) _ _ (k0_pay3 x1)
    natLt_1_32 bitsLt_bf16_f32 p q (x0 (ix3 (0 : Fin 1) p o)) (Spec.row (x0 (ix3 (0 : Fin 1) p o)))
    (Spec.row_toNat _ (hx _).1 (hx _).2) (fun k => lanes_apply x0 o hs p k)
    (fun k => iota_single_apply .tc S256x4096 32 (1 : Fin 2) iota_S256x4096_d1_w32 (ix2 p k))).trans ?_
  exact table_apply x1 _ q

/-- The slab stored for slot `o`, at its own index y = (0, r, 0, f): the feature entry (idx[r, o], f). -/
theorem slot_apply (o : Fin 20) (hs : S256x20.Slices ![0, o.val] S256x1) (y : S1x256x1x64.Idx) :
    shapeCast S1x256x1x64
        (slot o.val hs (k0_pay2 (F := Ideal) x0) (k0_pay3 x1) (iota .tc S256x4096 32 [1] iota_S256x4096_d1_w32))
        shapeCasts_S256x64_S1x256x1x64 y
      = x1 (ix3 (0 : Fin 1) (Spec.row (x0 (ix3 (0 : Fin 1) (y 1) o))) (y 3)) := by
  refine (shapeCast_apply _ _ y (ix2 (y 1) (y 3)) (by
    rw [Shape.rowMajor_val_two, Shape.rowMajor_val_four]
    have h0 : (y 0).val < 1 := (y 0).isLt
    have h2 : (y 2).val < 1 := (y 2).isLt
    show (y 1).val * 64 + (y 3).val = (((y 0).val * 256 + (y 1).val) * 1 + (y 2).val) * 64 + (y 3).val
    omega)).trans ?_
  exact product_apply x0 x1 hx o hs (y 1) (y 3)

omit hx

/-- The output block as one function of the block index (0, r, k, f): the feature entry (idx[r, k], f). -/
def lookupBlock : FVec Ideal S1x256x20x64 .f32 :=
  fun y => x1 (ix3 (0 : Fin 1) (Spec.row (x0 (ix3 (0 : Fin 1) (y 1) (y 2)))) (y 3))

/-- That function under the slab of slot k: the slab's index (0, r, 0, f) sits at (0, r, k, f) of the block. -/
theorem lookupBlock_emb (k : Fin 20) (off : Fin 4 → Nat) (hoff : off = ![0, 0, k.val, 0])
    (inb : ∀ a, off a + S1x256x1x64.size a ≤ S1x256x20x64.size a) (x : S1x256x1x64.Idx) :
    lookupBlock x0 x1 ((Rect.unit (s := S1x256x20x64) off S1x256x1x64.size inb).emb x)
      = x1 (ix3 (0 : Fin 1) (Spec.row (x0 (ix3 (0 : Fin 1) (x 1) k))) (x 3)) := by
  subst hoff
  have e1 : ((Rect.unit (s := S1x256x20x64) ![0, 0, k.val, 0] S1x256x1x64.size inb).emb x) 1 = x 1 :=
    Fin.ext (by show 0 + 1 * (x 1).val = (x 1).val; omega)
  have e2 : ((Rect.unit (s := S1x256x20x64) ![0, 0, k.val, 0] S1x256x1x64.size inb).emb x) 2 = k :=
    Fin.ext (by
      have h2 : (x 2).val < 1 := (x 2).isLt
      show k.val + 1 * (x 2).val = k.val
      omega)
  have e3 : ((Rect.unit (s := S1x256x20x64) ![0, 0, k.val, 0] S1x256x1x64.size inb).emb x) 3 = x 3 :=
    Fin.ext (by show 0 + 1 * (x 3).val = (x 3).val; omega)
  unfold lookupBlock
  rw [e1, e2, e3]

theorem hz3 : (![0, 0, 0] : Fin 3 → Nat) = fun _ => 0 := funext fun a => by
  match a with
  | ⟨0, _⟩ => rfl
  | ⟨1, _⟩ => rfl
  | ⟨2, _⟩ => rfl

include hx

/-- What the body leaves in the output block, from the two input blocks: the lookup. Each of the 20 stored slabs is
    the lookup under its rectangle, and the slabs cover the block. -/
theorem out_eq : out0_2 (F := Ideal) x0 x1 = lookupBlock x0 x1 := by
  funext y
  unfold out0_2
  simp only [View.ld_unit_zero (S := S1x256x20) hz3, View.ld_unit_zero (S := S1x4096x64) hz3]
  refine View.canon_apply_of_pieces (Val := Elt Ideal) (S := S1x256x20x64) (e := .f32) (lookupBlock x0 x1) _ ?_ y (cover0_2 _ _ _ _ _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl
  · intro x; exact (slot_apply x0 x1 hx ⟨19, by decide⟩ slices_S256x20_o0_19_S256x1 x).trans (lookupBlock_emb x0 x1 ⟨19, by decide⟩ ![0, 0, 19, 0] rfl inb_S1x256x20x64_S1x256x1x64_0_0_19_0 x).symm
  · intro x; exact (slot_apply x0 x1 hx ⟨18, by decide⟩ slices_S256x20_o0_18_S256x1 x).trans (lookupBlock_emb x0 x1 ⟨18, by decide⟩ ![0, 0, 18, 0] rfl inb_S1x256x20x64_S1x256x1x64_0_0_18_0 x).symm
  · intro x; exact (slot_apply x0 x1 hx ⟨17, by decide⟩ slices_S256x20_o0_17_S256x1 x).trans (lookupBlock_emb x0 x1 ⟨17, by decide⟩ ![0, 0, 17, 0] rfl inb_S1x256x20x64_S1x256x1x64_0_0_17_0 x).symm
  · intro x; exact (slot_apply x0 x1 hx ⟨16, by decide⟩ slices_S256x20_o0_16_S256x1 x).trans (lookupBlock_emb x0 x1 ⟨16, by decide⟩ ![0, 0, 16, 0] rfl inb_S1x256x20x64_S1x256x1x64_0_0_16_0 x).symm
  · intro x; exact (slot_apply x0 x1 hx ⟨15, by decide⟩ slices_S256x20_o0_15_S256x1 x).trans (lookupBlock_emb x0 x1 ⟨15, by decide⟩ ![0, 0, 15, 0] rfl inb_S1x256x20x64_S1x256x1x64_0_0_15_0 x).symm
  · intro x; exact (slot_apply x0 x1 hx ⟨14, by decide⟩ slices_S256x20_o0_14_S256x1 x).trans (lookupBlock_emb x0 x1 ⟨14, by decide⟩ ![0, 0, 14, 0] rfl inb_S1x256x20x64_S1x256x1x64_0_0_14_0 x).symm
  · intro x; exact (slot_apply x0 x1 hx ⟨13, by decide⟩ slices_S256x20_o0_13_S256x1 x).trans (lookupBlock_emb x0 x1 ⟨13, by decide⟩ ![0, 0, 13, 0] rfl inb_S1x256x20x64_S1x256x1x64_0_0_13_0 x).symm
  · intro x; exact (slot_apply x0 x1 hx ⟨12, by decide⟩ slices_S256x20_o0_12_S256x1 x).trans (lookupBlock_emb x0 x1 ⟨12, by decide⟩ ![0, 0, 12, 0] rfl inb_S1x256x20x64_S1x256x1x64_0_0_12_0 x).symm
  · intro x; exact (slot_apply x0 x1 hx ⟨11, by decide⟩ slices_S256x20_o0_11_S256x1 x).trans (lookupBlock_emb x0 x1 ⟨11, by decide⟩ ![0, 0, 11, 0] rfl inb_S1x256x20x64_S1x256x1x64_0_0_11_0 x).symm
  · intro x; exact (slot_apply x0 x1 hx ⟨10, by decide⟩ slices_S256x20_o0_10_S256x1 x).trans (lookupBlock_emb x0 x1 ⟨10, by decide⟩ ![0, 0, 10, 0] rfl inb_S1x256x20x64_S1x256x1x64_0_0_10_0 x).symm
  · intro x; exact (slot_apply x0 x1 hx ⟨9, by decide⟩ slices_S256x20_o0_9_S256x1 x).trans (lookupBlock_emb x0 x1 ⟨9, by decide⟩ ![0, 0, 9, 0] rfl inb_S1x256x20x64_S1x256x1x64_0_0_9_0 x).symm
  · intro x; exact (slot_apply x0 x1 hx ⟨8, by decide⟩ slices_S256x20_o0_8_S256x1 x).trans (lookupBlock_emb x0 x1 ⟨8, by decide⟩ ![0, 0, 8, 0] rfl inb_S1x256x20x64_S1x256x1x64_0_0_8_0 x).symm
  · intro x; exact (slot_apply x0 x1 hx ⟨7, by decide⟩ slices_S256x20_o0_7_S256x1 x).trans (lookupBlock_emb x0 x1 ⟨7, by decide⟩ ![0, 0, 7, 0] rfl inb_S1x256x20x64_S1x256x1x64_0_0_7_0 x).symm
  · intro x; exact (slot_apply x0 x1 hx ⟨6, by decide⟩ slices_S256x20_o0_6_S256x1 x).trans (lookupBlock_emb x0 x1 ⟨6, by decide⟩ ![0, 0, 6, 0] rfl inb_S1x256x20x64_S1x256x1x64_0_0_6_0 x).symm
  · intro x; exact (slot_apply x0 x1 hx ⟨5, by decide⟩ slices_S256x20_o0_5_S256x1 x).trans (lookupBlock_emb x0 x1 ⟨5, by decide⟩ ![0, 0, 5, 0] rfl inb_S1x256x20x64_S1x256x1x64_0_0_5_0 x).symm
  · intro x; exact (slot_apply x0 x1 hx ⟨4, by decide⟩ slices_S256x20_o0_4_S256x1 x).trans (lookupBlock_emb x0 x1 ⟨4, by decide⟩ ![0, 0, 4, 0] rfl inb_S1x256x20x64_S1x256x1x64_0_0_4_0 x).symm
  · intro x; exact (slot_apply x0 x1 hx ⟨3, by decide⟩ slices_S256x20_o0_3_S256x1 x).trans (lookupBlock_emb x0 x1 ⟨3, by decide⟩ ![0, 0, 3, 0] rfl inb_S1x256x20x64_S1x256x1x64_0_0_3_0 x).symm
  · intro x; exact (slot_apply x0 x1 hx ⟨2, by decide⟩ slices_S256x20_o0_2_S256x1 x).trans (lookupBlock_emb x0 x1 ⟨2, by decide⟩ ![0, 0, 2, 0] rfl inb_S1x256x20x64_S1x256x1x64_0_0_2_0 x).symm
  · intro x; exact (slot_apply x0 x1 hx ⟨1, by decide⟩ slices_S256x20_o0_1_S256x1 x).trans (lookupBlock_emb x0 x1 ⟨1, by decide⟩ ![0, 0, 1, 0] rfl inb_S1x256x20x64_S1x256x1x64_0_0_1_0 x).symm
  · intro x; exact (slot_apply x0 x1 hx ⟨0, by decide⟩ slices_S256x20_o0_0_S256x1 x).trans (lookupBlock_emb x0 x1 ⟨0, by decide⟩ ![0, 0, 0, 0] rfl inb_S1x256x20x64_S1x256x1x64_0_0_0_0 x).symm

end Cert.KernelBlock

end
-- ==== Proof.KernelValue.lean ====
/-
  The kernel's result array is the lookup.

  The grid has 32 × 16 points; point t works on batch t / 16 and on the query tile t mod 16. Its index block is rows
  256 · (t mod 16) … of the batch's index array, its feature block is the batch's whole [4096 × 64] table, and it
  writes back rows 256 · (t mod 16) … of the batch's [4096 × 20 × 64] result. One grid point leaves the lookup of its
  own blocks (the body, read as one function of the block index); read through the blocks' positions in the arrays,
  that is the block of the whole-array lookup the point's output rectangle names. The 512 output blocks tile the
  result array, so after the run the array is the lookup everywhere.

  Every index word must lie in [0, 4096) for the body's one-hot product to pick a row: the hypothesis `hx`.
-/
import proofs.«416370_j70824010711496_1_alg».proof.Proof.Gen.KernelIdeal.Value
import proofs.«416370_j70824010711496_1_alg».proof.Proof.KernelBlock
import proofs.«416370_j70824010711496_1_alg».proof.Proof.Spec
import Idealize.ShloMosaic.Lib.Pipeline.Value
import Idealize.ShloMosaic.Lib.ValueIdx

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The index array and the feature array as the region finds them, and a point's two input blocks, at their literal
    types. -/
abbrev idxArr (c : Dev nD) : IVec S32x4096x20 32 := V m c main_arg0
abbrev featArr (c : Dev nD) : FVec Ideal S32x4096x64 .f32 := V m c main_arg1
abbrev idxBlk (c : Dev nD) (t : Fin cfg0.N) : IVec S1x256x20 32 := iblk m c 0 t
abbrev featBlk (c : Dev nD) (t : Fin cfg0.N) : FVec Ideal S1x4096x64 .f32 := iblk m c 1 t

/-- Where each window's block sits at point t, decided over the 512 points: batch t / 16 on the leading axis of all
    three, query tile t mod 16 on the second axis of the index and result windows, block 0 on every other axis. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 4) = t.val / 16 ∧ win0_2.index t (1 : Fin 4) = t.val % 16
    ∧ win0_2.index t (2 : Fin 4) = 0 ∧ win0_2.index t (3 : Fin 4) = 0 :=
  (by decide +kernel : ∀ t : Fin grid0.N, _)

theorem N_eq : cfg0.N = 512 := by decide

/-- Entry (0, r, k) of point t's index block is entry (t / 16, 256 · (t mod 16) + r, k) of the index array. -/
theorem idxBlk_apply (c : Dev nD) (t : Fin cfg0.N) (r : Fin 256) (k : Fin 20) (b : Fin 32) (n : Fin 4096) (k' : Fin 20)
    (hb : b.val = t.val / 16) (hn : n.val = t.val % 16 * 256 + r.val) (hk : k'.val = k.val) :
    idxBlk m c t (ix3 (0 : Fin 1) r k) = idxArr m c (ix3 b n k') := by
  obtain ⟨e0, e1, e2, -⟩ := idx_facts t
  show V m c main_arg0 (((cfg0.win 0).blk t).view.emb (ix3 (0 : Fin 1) r k)) = V m c main_arg0 (ix3 b n k')
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 256 + 1 * r.val = n.val; omega
  | ⟨2, _⟩ => show win0_0.index t (2 : Fin 3) * 20 + 1 * k.val = k'.val; omega

/-- Entry (0, r, f) of point t's feature block is entry (t / 16, r, f) of the feature array. -/
theorem featBlk_apply (c : Dev nD) (t : Fin cfg0.N) (r : Fin 4096) (f : Fin 64) (b : Fin 32) (f' : Fin 64)
    (hb : b.val = t.val / 16) (hf : f'.val = f.val) :
    featBlk m c t (ix3 (0 : Fin 1) r f) = featArr m c (ix3 b r f') := by
  obtain ⟨-, -, -, e0, e1, e2, -⟩ := idx_facts t
  show V m c main_arg1 (((cfg0.win 1).blk t).view.emb (ix3 (0 : Fin 1) r f)) = V m c main_arg1 (ix3 b r f')
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 4096 + 1 * r.val = r.val; omega
  | ⟨2, _⟩ => show win0_1.index t (2 : Fin 3) * 64 + 1 * f.val = f'.val; omega

/-- The lookup of point t's two blocks at the block index y is the lookup of the two arrays at the array index i that
    y stands for: batch t / 16, query row 256 · (t mod 16) + y₁, the same neighbour slot and feature. -/
theorem point_eq (c : Dev nD) (t : Fin cfg0.N) (y : S1x256x20x64.Idx) (i : S32x4096x20x64.Idx)
    (hi0 : (i 0).val = t.val / 16) (hi1 : (i 1).val = t.val % 16 * 256 + (y 1).val)
    (hi2 : (i 2).val = (y 2).val) (hi3 : (i 3).val = (y 3).val) :
    KernelBlock.lookupBlock (idxBlk m c t) (featBlk m c t) y = Spec.G (idxArr m c) (featArr m c) i := by
  have e : idxBlk m c t (ix3 (0 : Fin 1) (y 1) (y 2)) = idxArr m c (ix3 (i 0) (i 1) (i 2)) :=
    idxBlk_apply m c t (y 1) (y 2) (i 0) (i 1) (i 2) hi0 hi1 hi2
  show featBlk m c t (ix3 (0 : Fin 1) (Spec.row (idxBlk m c t (ix3 (0 : Fin 1) (y 1) (y 2)))) (y 3))
    = featArr m c (ix3 (i 0) (Spec.row (idxArr m c (ix3 (i 0) (i 1) (i 2)))) (i 3))
  rw [e]
  exact featBlk_apply m c t _ (y 3) (i 0) (i 3) hi0 hi3

variable (hx : ∀ (c : Dev nD) (i : S32x4096x20.Idx), 0 ≤ (idxArr m c i).toInt ∧ (idxArr m c i).toInt < 4096)
include hx

/-- A block of index words in range is in range. -/
theorem idxBlk_in_range (c : Dev nD) (t : Fin cfg0.N) (z : S1x256x20.Idx) :
    0 ≤ (idxBlk m c t z).toInt ∧ (idxBlk m c t z).toInt < 4096 :=
  hx c (((cfg0.win 0).blk t).view.emb z)

/-- What point t writes back is block t of the lookup of the two argument arrays. -/
theorem flushed_eq (c : Dev nD) (t : Fin cfg0.N) :
    (dats m 0 c).flushed 2 t
      = ((cfg0.win 2).blk t).view.read (Elt Ideal) (Spec.G (idxArr m c) (featArr m c)) := by
  obtain ⟨-, -, -, -, -, -, e0, e1, e2, e3⟩ := idx_facts t
  rw [Cert.KernelIdeal.Value.flushed2]
  have hout : out0_2 (F := Ideal) (iblk m c 0 t) (iblk m c 1 t)
      = KernelBlock.lookupBlock (idxBlk m c t) (featBlk m c t) :=
    KernelBlock.out_eq (idxBlk m c t) (featBlk m c t) (idxBlk_in_range m hx c t)
  refine (congrArg ((cfg0.win 2).cut (grid0.coords t)) hout).trans ?_
  funext y
  have h0 : (y 0).val < 1 := (y 0).isLt
  show KernelBlock.lookupBlock (idxBlk m c t) (featBlk m c t) y
    = Spec.G (idxArr m c) (featArr m c) (((cfg0.win 2).blk t).view.emb y)
  refine point_eq m c t y _ ?_ ?_ ?_ ?_
  · show win0_2.index t (0 : Fin 4) * 1 + 1 * (y 0).val = t.val / 16; omega
  · show win0_2.index t (1 : Fin 4) * 256 + 1 * (y 1).val = t.val % 16 * 256 + (y 1).val; omega
  · show win0_2.index t (2 : Fin 4) * 20 + 1 * (y 2).val = (y 2).val; omega
  · show win0_2.index t (3 : Fin 4) * 64 + 1 * (y 3).val = (y 3).val; omega

/-- Every entry of the result array lies in the output block of the point of its batch and query tile. -/
theorem cover (i : S32x4096x20x64.Idx) :
    ∃ t : Fin cfg0.N, (cfg0.win 2).flush t = true ∧ i ∈ ((cfg0.win 2).blk t).view.set := by
  have h0 : (i 0).val < 32 := (i 0).isLt
  have h1 : (i 1).val < 4096 := (i 1).isLt
  have h2 : (i 2).val < 20 := (i 2).isLt
  have h3 : (i 3).val < 64 := (i 3).isLt
  let t : Fin cfg0.N := ⟨(i 0).val * 16 + (i 1).val / 256, by rw [N_eq]; omega⟩
  have tv : t.val = (i 0).val * 16 + (i 1).val / 256 := rfl
  obtain ⟨-, -, -, -, -, -, e0, e1, e2, e3⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 256 ≤ (i 1).val ∧ (i 1).val < win0_2.index t (1 : Fin 4) * 256 + 256
    omega
  | ⟨2, _⟩ =>
    show win0_2.index t (2 : Fin 4) * 20 ≤ (i 2).val ∧ (i 2).val < win0_2.index t (2 : Fin 4) * 20 + 20
    omega
  | ⟨3, _⟩ =>
    show win0_2.index t (3 : Fin 4) * 64 ≤ (i 3).val ∧ (i 3).val < win0_2.index t (3 : Fin 4) * 64 + 64
    omega

/-- After the run the result array is the lookup of the two argument arrays. -/
theorem final (c : Dev nD) :
    (dats m 0 c).arrAt 2 cfg0.N = Spec.G (idxArr m c) (featArr m c) :=
  (dats m 0 c).arrAt_eq_of_cover 2 (Spec.G (idxArr m c) (featArr m c)) (fun t _ => flushed_eq m hx c t)
    (fun i => cover m hx i)

/-- The kernel's run: every weakly fair execution ends with the result array at the lookup of the arguments as
    launched, the arguments unchanged. -/
theorem run : θ_run defs (onTc (τ := τ) (main (F := Ideal))) ⟨m, fun _ => 0, ρ⟩ fun r => ∀ c : Dev nD,
      r.2.mem ((c : Thread nD τ).loc main_v0)
        = Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hx c), (h c).2⟩)
    (Cert.KernelIdeal.Value.run_blocks m ρ)

end Cert.KernelValue

end
-- ==== Proof.LibGatherPairRows.lean ====
/-
  Taking rows of a batch of tables by (table, row) pairs: the gather that x[b, idx] lowers to when x is a
  [B × N × C] array and the start indices are a [B' × N' × K × 2] array of pairs, read at an entry.

  The two leading operand axes are collapsed and start-indexed, the last is an offset axis of full width, and the
  index vector lies along the start indices' last axis. Entry (b, n, k, q) of the result is then the operand's
  entry (a0, a1, q), where (a0, a1) is the pair stored at (b, n, k), each component read as a signed integer and
  clamped into its axis. A pair that already names a row of a table is left as it is.

  Beside it: the two columns of the pair array, when it is built by joining two [B' × N' × K × 1] arrays along the
  last axis.
-/
import Idealize.ShloMosaic.Lib.ValueIdx
import Idealize.ShloMosaic.Lib.Pipeline.Value

noncomputable section

namespace Cert.LibGatherPairRows

open Idealize.ShloMosaic Idealize.ShloMosaic.ValueIdx

/-- Entry (b, n, k, q) of a pair gather is the operand's entry (a0, a1, q) when the pair stored at (b, n, k) is
    (a0, a1). -/
theorem gather_pair_rows_apply {α : Type} {B N C B' N' K w : Nat}
    (d : GatherDims ⟨3, ![B, N, C]⟩ ⟨4, ![B', N', K, 2]⟩ ⟨4, ![B', N', K, C]⟩)
    (hoff : d.offsetDims = [3]) (hcol : d.collapsedSliceDims = [0, 1]) (hob : d.operandBatchingDims = [])
    (hsb : d.startIndicesBatchingDims = []) (hmap : d.startIndexMap = [0, 1]) (hiv : d.indexVectorDim = 3)
    (hsl : d.sliceSizes = ![1, 1, C])
    (x : (⟨3, ![B, N, C]⟩ : Shape).Idx → α) (idx : IVec ⟨4, ![B', N', K, 2]⟩ w)
    (b : Fin B') (n : Fin N') (k : Fin K) (q : Fin C) (a0 : Fin B) (a1 : Fin N)
    (h0 : (idx (ix4 b n k (0 : Fin 2))).toInt = (a0.val : Int))
    (h1 : (idx (ix4 b n k (1 : Fin 2))).toInt = (a1.val : Int)) :
    Host.gather d x idx (ix4 b n k q) = x (ix3 a0 a1 q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the table axis: collapsed and start-indexed by component 0 of the pair
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    generalize hX : GatherDims.siIdx _ (ix4 b n k q) _ = X
    have hX' : X = ix4 b n k (0 : Fin 2) := by
      rw [← hX]
      funext e
      match e with
      | ⟨0, _⟩ => rfl
      | ⟨1, _⟩ => rfl
      | ⟨2, _⟩ => rfl
      | ⟨3, _⟩ => rfl
    rw [hX', h0]
    show min ((a0.val : Int)).toNat (B - 1) = a0.val
    have hlt := a0.isLt
    rw [Int.toNat_natCast]
    omega
  | ⟨1, _⟩ =>
    -- the row axis: collapsed and start-indexed by component 1 of the pair
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    generalize hX : GatherDims.siIdx _ (ix4 b n k q) _ = X
    have hX' : X = ix4 b n k (1 : Fin 2) := by
      rw [← hX]
      funext e
      match e with
      | ⟨0, _⟩ => rfl
      | ⟨1, _⟩ => rfl
      | ⟨2, _⟩ => rfl
      | ⟨3, _⟩ => rfl
    rw [hX', h1]
    show min ((a1.val : Int)).toNat (N - 1) = a1.val
    have hlt := a1.isLt
    rw [Int.toNat_natCast]
    omega
  | ⟨2, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

/-- Column 0 of two [B' × N' × K × 1] arrays joined along the last axis is the first array. -/
theorem pair_fst {α : Type} {B' N' K : Nat} (x₁ x₂ : (⟨4, ![B', N', K, 1]⟩ : Shape).Idx → α)
    (hc : Shape.Concatenates [(⟨4, ![B', N', K, 1]⟩ : Shape), ⟨4, ![B', N', K, 1]⟩] ⟨4, ![B', N', K, 2]⟩ 3)
    (b : Fin B') (n : Fin N') (k : Fin K) :
    concatenate ⟨4, ![B', N', K, 2]⟩ 3 [⟨⟨4, ![B', N', K, 1]⟩, x₁⟩, ⟨⟨4, ![B', N', K, 1]⟩, x₂⟩] hc (ix4 b n k (0 : Fin 2))
      = x₁ (ix4 b n k (0 : Fin 1)) := by
  refine concatenate_pair_apply_left (3 : Fin 4) x₁ x₂ hc (ix4 b n k (0 : Fin 2)) rfl (ix4 b n k (0 : Fin 1)) ?_
  intro e
  match e with
  | ⟨0, _⟩ => rfl
  | ⟨1, _⟩ => rfl
  | ⟨2, _⟩ => rfl
  | ⟨3, _⟩ => rfl

/-- Column 1 of two [B' × N' × K × 1] arrays joined along the last axis is the second array. -/
theorem pair_snd {α : Type} {B' N' K : Nat} (x₁ x₂ : (⟨4, ![B', N', K, 1]⟩ : Shape).Idx → α)
    (hc : Shape.Concatenates [(⟨4, ![B', N', K, 1]⟩ : Shape), ⟨4, ![B', N', K, 1]⟩] ⟨4, ![B', N', K, 2]⟩ 3)
    (b : Fin B') (n : Fin N') (k : Fin K) :
    concatenate ⟨4, ![B', N', K, 2]⟩ 3 [⟨⟨4, ![B', N', K, 1]⟩, x₁⟩, ⟨⟨4, ![B', N', K, 1]⟩, x₂⟩] hc (ix4 b n k (1 : Fin 2))
      = x₂ (ix4 b n k (0 : Fin 1)) := by
  refine concatenate_pair_apply_right (3 : Fin 4) x₁ x₂ hc (ix4 b n k (1 : Fin 2)) rfl rfl (ix4 b n k (0 : Fin 1)) ?_ ?_
  · intro e he
    match e, he with
    | ⟨0, _⟩, _ => rfl
    | ⟨1, _⟩, _ => rfl
    | ⟨2, _⟩, _ => rfl
    | ⟨3, _⟩, he => exact absurd rfl he
  · rfl

end Cert.LibGatherPairRows

end
-- ==== Proof.RefValue.lean ====
/-
  The reference is the lookup. jnp's x[arange(B)[:, None, None], idx] builds, for every (b, n, k), the pair
  (b, idx[b, n, k]) — each component first passed through numpy's wrap of a negative index, which leaves a
  non-negative word alone — joins the two components along a new last axis and gathers rows of the feature array by
  those pairs. A batch number is below 32 and an index word, under the precondition, lies in [0, 4096): neither is
  wrapped, and the gather's clamp of an in-range pair is the pair. So entry (b, n, k, f) of the result is
  features[b, idx[b, n, k], f].
-/
import proofs.«416370_j70824010711496_1_alg».proof.Proof.Gen.ReferenceIdeal.Read
import proofs.«416370_j70824010711496_1_alg».proof.Proof.LibGatherPairRows
import proofs.«416370_j70824010711496_1_alg».proof.Proof.Spec
import Idealize.ShloMosaic.Lib.StableHlo.Predicate
import Idealize.ShloMosaic.Lib.ValueIdx

noncomputable section

namespace Cert.RefValue

open Cert.ReferenceIdeal Cert.ReferenceIdeal.Gen Cert.ReferenceIdeal.Read
open Idealize.ShloMosaic Idealize.ShloMosaic.ValueIdx

/-- numpy's wrap `i < 0 ? i + extent : i` of a word that is not negative is the word. -/
theorem wrap_of_nonneg (x e : BitVec 32) (hx : 0 ≤ x.toInt) :
    Scalar.select (IntOp.cmpi .slt x 0#32) (IntOp.addi x e) x = x := by
  have hbit : IntOp.cmpi .slt x 0#32 = 0#1 := by
    refine eq_zero_of_ne_one fun h1 => ?_
    simp only [IntOp.cmpi, StableHlo.Predicate.ofBool_eq_one_iff, BitVec.slt, decide_eq_true_eq] at h1
    have h0 : (0#32 : BitVec 32).toInt = 0 := by decide
    omega
  rw [hbit, select_zero]

variable (x0 : IVec S32x4096x20 32)

/-- The index array's entry that the pair (b, n, k) is built from. -/
theorem idx14 (b : Fin 32) (n : Fin 4096) (k : Fin 20) : idx_main_v14 (ix4 b n k (0 : Fin 1)) = ix3 b n k := by
  funext a
  match a with
  | ⟨0, _⟩ => rfl
  | ⟨1, _⟩ => rfl
  | ⟨2, _⟩ => rfl

/-- Component 0 of the pair at (b, n, k) is the batch number b. -/
theorem batch_component (b : Fin 32) (n : Fin 4096) (k : Fin 20) :
    (val_main_v15 (F := Ideal) x0 (ix4 b n k (0 : Fin 2))).toInt = (b.val : Int) := by
  have hb := b.isLt
  have hi : (BitVec.ofNat 32 b.val).toInt = (b.val : Int) := StableHlo.Predicate.toInt_ofNat_small b.val (by omega)
  have e : val_main_v15 (F := Ideal) x0 (ix4 b n k (0 : Fin 2)) = BitVec.ofNat 32 b.val := by
    unfold val_main_v15
    refine (LibGatherPairRows.pair_fst _ _ _ b n k).trans ?_
    simp only [val_main_v13_apply, val_main_v12_apply, val_main_v6_apply, val_main_v3_apply, val_main_v5_apply,
      val_main_v1_apply, val_main_v2_apply, val_main_v4_apply, val_main_v0_apply, val_main_c_apply, val_main_c_0_apply]
    show Scalar.select (IntOp.cmpi .slt (BitVec.ofNat 32 b.val) 0#32) (IntOp.addi (BitVec.ofNat 32 b.val) 32#32)
      (BitVec.ofNat 32 b.val) = _
    exact wrap_of_nonneg _ _ (by rw [hi]; exact Int.natCast_nonneg _)
  rw [e, hi]

/-- Component 1 of the pair at (b, n, k) is the index word idx[b, n, k] when that word is not negative. -/
theorem row_component (b : Fin 32) (n : Fin 4096) (k : Fin 20) (h0 : 0 ≤ (x0 (ix3 b n k)).toInt) :
    val_main_v15 (F := Ideal) x0 (ix4 b n k (1 : Fin 2)) = x0 (ix3 b n k) := by
  unfold val_main_v15
  refine (LibGatherPairRows.pair_snd _ _ _ b n k).trans ?_
  simp only [val_main_v14_apply, val_main_v11_apply, val_main_v8_apply, val_main_v10_apply, val_main_v7_apply,
    val_main_v9_apply, val_main_c_1_apply, val_main_c_2_apply, idx14]
  exact wrap_of_nonneg _ _ h0

/-- The reference's result is the lookup, for index words in [0, 4096). -/
theorem ref_eq (x1 : FVec Ideal S32x4096x64 .f32)
    (hx : ∀ i : S32x4096x20.Idx, 0 ≤ (x0 i).toInt ∧ (x0 i).toInt < 4096) :
    val_main_v16 (F := Ideal) x0 x1 = Spec.G x0 x1 := by
  funext j
  obtain ⟨b, n, k, f, rfl⟩ : ∃ (b : Fin 32) (n : Fin 4096) (k : Fin 20) (f : Fin 64), j = ix4 b n k f :=
    ⟨j 0, j 1, j 2, j 3, eq_ix4 j⟩
  unfold val_main_v16
  rw [Spec.G_apply]
  exact LibGatherPairRows.gather_pair_rows_apply _ rfl rfl rfl rfl rfl rfl rfl x1 _ b n k f b
    (Spec.row (x0 (ix3 b n k))) (batch_component x0 b n k)
    (by rw [row_component x0 b n k (hx _).1]; exact Spec.row_toInt _ (hx _).1 (hx _).2)

end Cert.RefValue

end
-- ==== Proof.lean ====
/-
  A k-nearest-neighbour feature lookup, out[b, n, k, :] = features[b, idx[b, n, k], :], computed two ways.

  The kernel has no row gather to use, so for each of the 20 neighbour slots it turns a tile's 256 index words into a
  256 × 4096 matrix of zeros and ones — a one exactly where the lane number equals the index word — and multiplies
  that matrix with the batch's 4096 × 64 feature table. On the extended reals a row that is zero but for a single one
  picks a row of the table exactly (1 · x = x, 0 · x = 0 also at the infinities, and a change of float format is the
  identity), so nothing is asked of the features. The reference builds the pairs (b, idx[b, n, k]) and gathers by them.

  The two agree exactly when every index word names a point, 0 ≤ idx < 4096: for a word outside that range the
  one-hot row is all zero and the kernel writes 0, while the reference wraps a negative word and clamps the rest.
  The precondition therefore states the range of the indices beside the finiteness of the features, and the
  finiteness is never used.

  The three frames are the generated ones (the reference's is its run with the value dropped); no operation of the
  kernel was rewritten when it was idealized, so the fourth conjunct is trivial; the fifth puts the kernel's run
  (its result array is the lookup, block by block over the 32 × 16 grid) beside the reference's run (its result is
  the lookup, the gather read at an index) on memories that agree on the arguments.
-/
import proofs.«416370_j70824010711496_1_alg».proof.Defs
import proofs.«416370_j70824010711496_1_alg».proof.Proof.Gen.Kernel
import proofs.«416370_j70824010711496_1_alg».proof.Proof.Gen.Kernel.Skeleton
import proofs.«416370_j70824010711496_1_alg».proof.Proof.Gen.Kernel.Launch
import proofs.«416370_j70824010711496_1_alg».proof.Proof.Gen.Kernel.Points
import proofs.«416370_j70824010711496_1_alg».proof.Proof.Gen.Kernel.Frame
import proofs.«416370_j70824010711496_1_alg».proof.Proof.Gen.KernelIdeal
import proofs.«416370_j70824010711496_1_alg».proof.Proof.Gen.KernelIdeal.Skeleton
import proofs.«416370_j70824010711496_1_alg».proof.Proof.Gen.KernelIdeal.Launch
import proofs.«416370_j70824010711496_1_alg».proof.Proof.Gen.KernelIdeal.Points
import proofs.«416370_j70824010711496_1_alg».proof.Proof.Gen.KernelIdeal.Frame
import proofs.«416370_j70824010711496_1_alg».proof.Proof.Gen.ReferenceIdeal
import proofs.«416370_j70824010711496_1_alg».proof.Proof.Gen.Pre_finite_inputs
import proofs.«416370_j70824010711496_1_alg».proof.Proof.Gen.KernelIdeal.Value
import proofs.«416370_j70824010711496_1_alg».proof.Proof.Gen.ReferenceIdeal.Run
import proofs.«416370_j70824010711496_1_alg».proof.Proof.Gen.ReferenceIdeal.Read
import proofs.«416370_j70824010711496_1_alg».proof.Proof.InRange
import proofs.«416370_j70824010711496_1_alg».proof.Proof.KernelValue
import proofs.«416370_j70824010711496_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the index array and the feature array, and whose index words lie in [0, 4096), both
    programs end with the lookup of those arrays in their result. -/
theorem algebraic : Cert.algebraic_KernelIdeal_ReferenceIdeal := by
  intro m ρ m' ρ' hpre hagree
  have hx : ∀ (c : Dev Cert.KernelIdeal.nD) (i : Cert.KernelIdeal.S32x4096x20.Idx),
      0 ≤ (Cert.KernelValue.idxArr m c i).toInt ∧ (Cert.KernelValue.idxArr m c i).toInt < 4096 :=
    fun c i => Cert.InRange.index_in_range _ _ (hpre c) i
  refine ⟨_, Cert.KernelValue.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  exact Cert.RefValue.ref_eq _ _ (hx c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
